-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S32 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg6 : FVec F S64 .f32) (main_arg7 : FVec F S64x32 .f32) (main_arg8 : FVec F S64x32 .f32) (main_arg9 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg9 main_v33

def fn {F : FTy → Type} [FloatOps F] (main_arg0 : FVec F S50000x64 .f32) (main_arg1 : IVec S800000 32) (main_arg2 : IVec S800000 32) (main_arg3 : FVec F S800000 .f32) (main_arg4 : FVec F S64x64 .f32) (main_arg5 : FVec F S64x64 .f32) (main_arg6 : FVec F S64 .f32) (main_arg7 : FVec F S64x32 .f32) (main_arg8 : FVec F S64x32 .f32) (main_arg9 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S5000x64 : Shape := ⟨2, ![5000, 64]⟩
abbrev S1x32 : Shape := ⟨2, ![1, 32]⟩
abbrev S50000x32 : Shape := ⟨2, ![50000, 32]⟩
abbrev S5000x32 : Shape := ⟨2, ![5000, 32]⟩

abbrev nBuf : Space → Nat
  | .hbm => 58
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S64x32, .f32⟩
  | .hbm, ⟨9, _⟩ => ⟨S32, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S800000x1, .f32⟩
  | .hbm, ⟨29, _⟩ => ⟨S800000x64, .f32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S50000x1, .f32⟩
  | .hbm, ⟨36, _⟩ => ⟨S50000x64, .f32⟩
  | .hbm, ⟨37, _⟩ => ⟨S50000x64, .f32⟩
  | .hbm, ⟨38, _⟩ => ⟨S1x64, .f32⟩
  | .hbm, ⟨39, _⟩ => ⟨S50000x64, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x64, .f32⟩
  | .hbm, ⟨49, _⟩ => ⟨S_, .f32⟩
  | .hbm, ⟨50, _⟩ => ⟨S50000x64, .f32⟩
  | .hbm, ⟨51, _⟩ => ⟨S800000x1, .i32⟩
  | .hbm, ⟨52, _⟩ => ⟨S50000x64, .f32⟩
  | .hbm, ⟨53, _⟩ => ⟨S50000x1, .f32⟩
  | .hbm, ⟨54, _⟩ => ⟨S50000x64, .f32⟩
  | .hbm, ⟨55, _⟩ => ⟨S50000x64, .f32⟩
  | .hbm, ⟨56, _⟩ => ⟨S1x32, .f32⟩
  | .hbm, ⟨57, _⟩ => ⟨S50000x32, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x32, .f32⟩
  | .local _ .vmem, ⟨14, _⟩ => ⟨S64x32, .f32⟩
  | .local _ .vmem, ⟨15, _⟩ => ⟨S1x32, .f32⟩
  | .local _ .vmem, ⟨16, _⟩ => ⟨S5000x32, .f32⟩
  | .local _ .vmem, ⟨17, _⟩ => ⟨S5000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S50000x32.size a
  hwx1_5 : ∀ i : grid1.Coords, EltTy.bits .f32 = 32 ∨ (Rect.block (s := S50000x32) S5000x32.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S50000x32 : Shape := ⟨2, ![50000, 32]⟩
abbrev S1x32 : Shape := ⟨2, ![1, 32]⟩

abbrev nBuf : Space → Nat
  | .hbm => 69
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S64x32, .f32⟩
  | .hbm, ⟨9, _⟩ => ⟨S32, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S800000x1, .f32⟩
  | .hbm, ⟨29, _⟩ => ⟨S800000x64, .f32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S50000x1, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S50000x64, .f32⟩
  | .hbm, ⟨41, _⟩ => ⟨S1x64, .f32⟩
  | .hbm, ⟨42, _⟩ => ⟨S50000x64, .f32⟩
  | .hbm, ⟨43, _⟩ => ⟨S50000x64, .f32⟩
  | .hbm, ⟨44, _⟩ => ⟨S_, .f32⟩
  | .hbm, ⟨45, _⟩ => ⟨S50000x64, .f32⟩
  | .hbm, ⟨46, _⟩ => ⟨S50000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S50000x1, .f32⟩
  | .hbm, ⟨61, _⟩ => ⟨S50000x64, .f32⟩
  | .hbm, ⟨62, _⟩ => ⟨S50000x64, .f32⟩
  | .hbm, ⟨63, _⟩ => ⟨S50000x32, .f32⟩
  | .hbm, ⟨64, _⟩ => ⟨S50000x32, .f32⟩
  | .hbm, ⟨65, _⟩ => ⟨S50000x32, .f32⟩
  | .hbm, ⟨66, _⟩ => ⟨S1x32, .f32⟩
  | .hbm, ⟨67, _⟩ => ⟨S50000x32, .f32⟩
  | .hbm, ⟨68, _⟩ => ⟨S50000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf

class Facts : Prop extends Facts₀ where

variable [Facts]
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.BlockPayload.lean ====
/-
  What each kernel body stores, at one entry of its 5000-row block.

  The body loads a block xb of node rows and a block ab of aggregated rows (5000 × 64 each), the two weight matrices
  whole and the bias row, and stores
      first kernel : max( (xb·W + ab·W') + b , 0 )        (5000 × 64)
      second kernel:      (xb·W + ab·W') + b              (5000 × 32)
  with the operands narrowed to a shorter float format before each product. On exact numbers the narrowing is the
  identity and a product accumulated into zero is the plain sum over the contracted coordinate, so at entry (p, q)
      (∑_k xb(p,k)·W(k,q) + ∑_k ab(p,k)·W'(k,q)) + b(0,q),
  for the first kernel under the maximum with zero.
-/
import proofs.«162833_j73641509257822_1_alg».proof.Proof.Gen.KernelIdeal.Skeleton
import proofs.«162833_j73641509257822_1_alg».proof.Proof.LibMatmulPlain
import Idealize.ShloMosaic.Lib.ValueIdx
import Idealize.ShloMosaic.Lib.ValueLayout
import Idealize.ShloMosaic.Lib.Pipeline.Value

noncomputable section

namespace Cert.Sage

open Idealize.ShloMosaic Idealize.ShloMosaic.ValueIdx Cert.KernelIdeal Cert.KernelIdeal.Gen

/-- The first kernel's stored block at entry (p, q). -/
theorem firstPayload_apply (xb ab : Vec Ideal S5000x64 .f32) (W W' : Vec Ideal S64x64 .f32) (b : Vec Ideal S1x64 .f32)
    (p : Fin 5000) (q : Fin 64) :
    k0_pay1 (F := Ideal) xb ab W W' b (ix2 p q)
      = max (((∑ k : Fin 64, xb (ix2 p k) * W (ix2 k q)) + ∑ k : Fin 64, ab (ix2 p k) * W' (ix2 k q)) + b (ix2 (0 : Fin 1) q))
          (Ideal.ofBits .f32 0x00000000#32) := by
  unfold k0_pay1
  simp only [shapeCast_self]
  show max ((matmul (F := Ideal) (DotDims.plain 5000 64 64) none xb W (constant ⟨2, ![5000, 64]⟩ .f32 0x00000000#32) (ix2 p q)
      + matmul (F := Ideal) (DotDims.plain 5000 64 64) none ab W' (constant ⟨2, ![5000, 64]⟩ .f32 0x00000000#32) (ix2 p q))
      + broadcastTo ⟨2, ![5000, 64]⟩ b broadcasts_S1x64_S5000x64 (ix2 p q)) (Ideal.ofBits .f32 0x00000000#32) = _
  rw [MatmulPlain.matmul_zero_apply, MatmulPlain.matmul_zero_apply, broadcastTo_1b_ab_apply]

/-- The second kernel's stored block at entry (p, q). -/
theorem secondPayload_apply (xb ab : Vec Ideal S5000x64 .f32) (W W' : Vec Ideal S64x32 .f32) (b : Vec Ideal S1x32 .f32)
    (p : Fin 5000) (q : Fin 32) :
    k1_pay1 (F := Ideal) xb ab W W' b (ix2 p q)
      = ((∑ k : Fin 64, xb (ix2 p k) * W (ix2 k q)) + ∑ k : Fin 64, ab (ix2 p k) * W' (ix2 k q)) + b (ix2 (0 : Fin 1) q) := by
  unfold k1_pay1
  simp only [shapeCast_self]
  show (matmul (F := Ideal) (DotDims.plain 5000 64 32) none xb W (constant ⟨2, ![5000, 32]⟩ .f32 0x00000000#32) (ix2 p q)
      + matmul (F := Ideal) (DotDims.plain 5000 64 32) none ab W' (constant ⟨2, ![5000, 32]⟩ .f32 0x00000000#32) (ix2 p q))
      + broadcastTo ⟨2, ![5000, 32]⟩ b broadcasts_S1x32_S5000x32 (ix2 p q) = _
  rw [MatmulPlain.matmul_zero_apply, MatmulPlain.matmul_zero_apply, broadcastTo_1b_ab_apply]

end Cert.Sage

end
-- ==== Proof.LibDotPlain.lean ====
/-
  A general lemma. The host's plain matrix product of an [M, K] array by a [K, N] array (the left operand contracted
  on its second axis, the right on its first, no batch axes), read at the exact instance, is at entry (p, q) the
  finite sum over the contraction coordinate k of left (p, k) · right (k, q). The host product has no accumulator, so
  nothing is added in front of the sum. It holds for all sizes, both operands' formats and any precision key.
-/
import Idealize.ShloMosaic.Lib.ValueIdx
import Idealize.ShloMosaic.PureOps.Ideal.Laws
import proofs.«162833_j73641509257822_1_alg».proof.Proof.LibMatmulPlain

namespace Idealize.ShloMosaic.DotPlain

open Idealize.ShloMosaic Idealize.ShloMosaic.ValueIdx Idealize.ShloMosaic.MatmulPlain

variable {M K N : ℕ}

/-- Entry (p, q) of the host's plain product is ∑ k, left (p, k) · right (k, q). -/
theorem dotGeneral_apply {φ₁ φ₂ : FTy} (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  show FloatOps.dotGeneral (DotDims.plain M K N) prec .single l r (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.DotPlain
-- ==== Proof.DenseLayer.lean ====
/-
  One dense layer of the network over all 50000 nodes, as a plain matrix expression, and what it holds at one entry.

  With x the node rows, a the aggregated neighbour rows, W and W' the two weight matrices and b the bias as a single
  row [1, N]:
      denseRelu x a W W' b = max( (x·W + a·W') + b , 0 )      (first layer, N = 64)
      denseLin  h a W W' b =      (h·W + a·W') + b            (second layer, N = 32)
  the bias row repeated down the 50000 rows. At entry (r, q) each is
      (∑_k x(r,k)·W(k,q) + ∑_k a(r,k)·W'(k,q)) + b(0,q),
  for the first layer under the maximum with zero. The bias vector [N] is made a row [1, N] either by a reshape or by
  a broadcast along a new leading axis; both rows read b(q) at (0, q), so they are the same row.
-/
import proofs.«162833_j73641509257822_1_alg».proof.Proof.Gen.KernelIdeal
import proofs.«162833_j73641509257822_1_alg».proof.Proof.LibDotPlain
import Idealize.ShloMosaic.Lib.ValueIdx
import Idealize.ShloMosaic.Lib.ValueLayout
import Idealize.ShloMosaic.Lib.Pipeline.Value

noncomputable section

namespace Cert.Sage

open Idealize.ShloMosaic Idealize.ShloMosaic.ValueIdx Cert.KernelIdeal Cert.KernelIdeal.Gen

/-- A [1, 64] row repeats down 50000 rows. -/
theorem row64_repeats : S1x64.BroadcastsInDim S50000x64 (![0, 1] : Fin 2 → Fin S50000x64.rank) := by decide
/-- A [1, 32] row repeats down 50000 rows. -/
theorem row32_repeats : S1x32.BroadcastsInDim S50000x32 (![0, 1] : Fin 2 → Fin S50000x32.rank) := by decide
/-- A [64] vector lies along the second axis of a [1, 64] row. -/
theorem vec64_as_row : S64.BroadcastsInDim S1x64 (![1] : Fin 1 → Fin S1x64.rank) := by decide
/-- A [32] vector lies along the second axis of a [1, 32] row. -/
theorem vec32_as_row : S32.BroadcastsInDim S1x32 (![1] : Fin 1 → Fin S1x32.rank) := by decide

/-- The first layer: max((x·W + a·W') + b, 0). -/
def denseRelu (x a : FVec Ideal S50000x64 .f32) (W W' : FVec Ideal S64x64 .f32) (b : FVec Ideal S1x64 .f32) :
    FVec Ideal S50000x64 .f32 :=
  maximumf
    (addf (addf (Host.dotGeneral (F := Ideal) (DotDims.plain 50000 64 64) none x W)
        (Host.dotGeneral (F := Ideal) (DotDims.plain 50000 64 64) none a W'))
      (broadcastInDim S50000x64 ![0, 1] row64_repeats b))
    (broadcastInDim S50000x64 ![] bcast_S_S50000x64 (constant (F := Ideal) S_ .f32 0x00000000#32))

/-- The second layer: (h·W + a·W') + b. -/
def denseLin (h a : FVec Ideal S50000x64 .f32) (W W' : FVec Ideal S64x32 .f32) (b : FVec Ideal S1x32 .f32) :
    FVec Ideal S50000x32 .f32 :=
  addf (addf (Host.dotGeneral (F := Ideal) (DotDims.plain 50000 64 32) none h W)
      (Host.dotGeneral (F := Ideal) (DotDims.plain 50000 64 32) none a W'))
    (broadcastInDim S50000x32 ![0, 1] row32_repeats b)

/-- The bias vector as a row, by a broadcast along a new leading axis. -/
def rowOf64 (b : FVec Ideal S64 .f32) : FVec Ideal S1x64 .f32 := broadcastInDim S1x64 ![1] vec64_as_row b
/-- The bias vector as a row, by a broadcast along a new leading axis. -/
def rowOf32 (b : FVec Ideal S32 .f32) : FVec Ideal S1x32 .f32 := broadcastInDim S1x32 ![1] vec32_as_row b

/-- A repeated [1, 64] row reads, at (r, q), the row at q. -/
theorem row64_repeats_apply (b : FVec Ideal S1x64 .f32) (r : Fin 50000) (q : Fin 64) :
    broadcastInDim S50000x64 ![0, 1] row64_repeats b (ix2 r q) = b (ix2 (0 : Fin 1) q) :=
  broadcastInDim_apply _ _ b (ix2 r q) (ix2 (0 : Fin 1) q) fun a => by
    match a with
    | ⟨0, _⟩ => rfl
    | ⟨1, _⟩ => rfl

/-- A repeated [1, 32] row reads, at (r, q), the row at q. -/
theorem row32_repeats_apply (b : FVec Ideal S1x32 .f32) (r : Fin 50000) (q : Fin 32) :
    broadcastInDim S50000x32 ![0, 1] row32_repeats b (ix2 r q) = b (ix2 (0 : Fin 1) q) :=
  broadcastInDim_apply _ _ b (ix2 r q) (ix2 (0 : Fin 1) q) fun a => by
    match a with
    | ⟨0, _⟩ => rfl
    | ⟨1, _⟩ => rfl

/-- The first layer at entry (r, q). -/
theorem denseRelu_apply (x a : FVec Ideal S50000x64 .f32) (W W' : FVec Ideal S64x64 .f32) (b : FVec Ideal S1x64 .f32)
    (r : Fin 50000) (q : Fin 64) :
    denseRelu x a W W' b (ix2 r q)
      = max (((∑ k : Fin 64, x (ix2 r k) * W (ix2 k q)) + ∑ k : Fin 64, a (ix2 r k) * W' (ix2 k q)) + b (ix2 (0 : Fin 1) q))
          (Ideal.ofBits .f32 0x00000000#32) := by
  unfold denseRelu
  rw [maximumf_apply, addf_apply, addf_apply, DotPlain.dotGeneral_apply, DotPlain.dotGeneral_apply, row64_repeats_apply]
  rfl

/-- The second layer at entry (r, q). -/
theorem denseLin_apply (h a : FVec Ideal S50000x64 .f32) (W W' : FVec Ideal S64x32 .f32) (b : FVec Ideal S1x32 .f32)
    (r : Fin 50000) (q : Fin 32) :
    denseLin h a W W' b (ix2 r q)
      = ((∑ k : Fin 64, h (ix2 r k) * W (ix2 k q)) + ∑ k : Fin 64, a (ix2 r k) * W' (ix2 k q)) + b (ix2 (0 : Fin 1) q) := by
  unfold denseLin
  rw [addf_apply, addf_apply, DotPlain.dotGeneral_apply, DotPlain.dotGeneral_apply, row32_repeats_apply]

/-- The reshape of a [64] vector to a [1, 64] row is the broadcast row. -/
theorem reshape_row64 (b : FVec Ideal S64 .f32) (h : S64.ShapeCasts S1x64) : shapeCast S1x64 b h = rowOf64 b := by
  funext j
  obtain ⟨u, q, rfl⟩ : ∃ (u : Fin 1) (q : Fin 64), j = ix2 u q := ⟨j 0, j 1, eq_ix2 j⟩
  unfold rowOf64
  rw [shapeCast_a_1a_apply, broadcastInDim_apply _ _ b (ix2 u q) (ix1 q) fun a => by
    match a with
    | ⟨0, _⟩ => rfl]

/-- The reshape of a [32] vector to a [1, 32] row is the broadcast row. -/
theorem reshape_row32 (b : FVec Ideal S32 .f32) (h : S32.ShapeCasts S1x32) : shapeCast S1x32 b h = rowOf32 b := by
  funext j
  obtain ⟨u, q, rfl⟩ : ∃ (u : Fin 1) (q : Fin 32), j = ix2 u q := ⟨j 0, j 1, eq_ix2 j⟩
  unfold rowOf32
  rw [shapeCast_a_1a_apply, broadcastInDim_apply _ _ b (ix2 u q) (ix1 q) fun a => by
    match a with
    | ⟨0, _⟩ => rfl]

end Cert.Sage

end
-- ==== Proof.LayerOneArray.lean ====
/-
  The first layer's output array after its region: max((x·W + a·W') + b, 0) of the arrays the region was entered with.

  The region runs the kernel body once per block of 5000 node rows, ten blocks in all, and writes each result block
  back to rows 5000·t … 5000·t + 4999 of the output array. Point t's input blocks are those same rows of the node array
  and of the aggregated array, and the two weight matrices and the bias row whole. So what point t writes back is
  block t of ONE matrix expression of the arrays as the region finds them, max((x·W + a·W') + b, 0): at row p of the block and column q both are
      (∑_k x(5000·t + p, k)·W(k,q) + ∑_k a(5000·t + p, k)·W'(k,q)) + b(0,q), under the maximum with zero.
  The ten blocks cover every row, so after the region the output array is that expression.
-/
import proofs.«162833_j73641509257822_1_alg».proof.Proof.Gen.KernelIdeal.Frame
import proofs.«162833_j73641509257822_1_alg».proof.Proof.BlockPayload
import proofs.«162833_j73641509257822_1_alg».proof.Proof.DenseLayer
import Idealize.ShloMosaic.Lib.Pipeline.Value

noncomputable section

namespace Cert.Sage.First

open Idealize.ShloMosaic Idealize.ShloMosaic.TcCoe Idealize.ShloMosaic.ValueIdx Idealize.SL.Sem
open Cert.KernelIdeal Cert.KernelIdeal.Gen Cert.Sage
open Idealize.ShloMosaic.Pipeline (Dat)

-- the buffers' contents when the region is entered
variable (V : (c : Dev nD) → (b : Ref sig .tc) → Buf (Elt Ideal) ((c : Thread nD τ).loc b))

theorem origin2 : (![0, 0] : Fin 2 → Nat) = fun _ => 0 := funext fun a => by fin_cases a <;> rfl

/-- The block index of every window at every one of the ten points: the row blocks move with the point, the weights
    and the bias stay. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 10 :=
  (by decide +kernel : ∀ t : Fin grid0.N, _)

/-- The array row under row p of point t's block. -/
def rowAt (t : Fin cfg0.N) (p : Fin 5000) : Fin 50000 :=
  ⟨5000 * t.val + p.val, by have := (blockIndex t).2.2.2.2.2.2.2.2.2.2.2.2; have := p.isLt; omega⟩

/-- Point t's block of the node rows is rows 5000·t … of the node array. -/
theorem nodeBlock_apply (c : Dev nD) (t : Fin cfg0.N) (p : Fin 5000) (k : Fin 64) :
    iblk0 V c 0 t (ix2 p k) = V c main_arg0 (ix2 (rowAt t p) k) := by
  show V c main_arg0 (((cfg0.win 0).blk t).view.emb (ix2 p k)) = _
  refine congrArg (V c main_arg0) (funext fun a => Fin.ext ?_)
  obtain ⟨e0, e1, -⟩ := blockIndex t
  match a with
  | ⟨0, _⟩ => show win0_0.index t (0 : Fin 2) * 5000 + 1 * p.val = 5000 * t.val + p.val; omega
  | ⟨1, _⟩ => show win0_0.index t (1 : Fin 2) * 64 + 1 * k.val = k.val; omega

/-- Point t's block of the aggregated rows is rows 5000·t … of the aggregated array. -/
theorem aggBlock_apply (c : Dev nD) (t : Fin cfg0.N) (p : Fin 5000) (k : Fin 64) :
    iblk0 V c 1 t (ix2 p k) = V c main_v21 (ix2 (rowAt t p) k) := by
  show V c main_v21 (((cfg0.win 1).blk t).view.emb (ix2 p k)) = _
  refine congrArg (V c main_v21) (funext fun a => Fin.ext ?_)
  obtain ⟨-, -, e0, e1, -⟩ := blockIndex t
  match a with
  | ⟨0, _⟩ => show win0_1.index t (0 : Fin 2) * 5000 + 1 * p.val = 5000 * t.val + p.val; omega
  | ⟨1, _⟩ => show win0_1.index t (1 : Fin 2) * 64 + 1 * k.val = k.val; omega

/-- The first weight matrix is staged whole at every point. -/
theorem selfWeight_apply (c : Dev nD) (t : Fin cfg0.N) (k : Fin 64) (q : Fin 64) :
    iblk0 V c 2 t (ix2 k q) = V c main_arg4 (ix2 k q) := by
  show V c main_arg4 (((cfg0.win 2).blk t).view.emb (ix2 k q)) = _
  refine congrArg (V c main_arg4) (funext fun a => Fin.ext ?_)
  obtain ⟨-, -, -, -, e0, e1, -⟩ := blockIndex t
  match a with
  | ⟨0, _⟩ => show win0_2.index t (0 : Fin 2) * 64 + 1 * k.val = k.val; omega
  | ⟨1, _⟩ => show win0_2.index t (1 : Fin 2) * 64 + 1 * q.val = q.val; omega

/-- The second weight matrix is staged whole at every point. -/
theorem neighWeight_apply (c : Dev nD) (t : Fin cfg0.N) (k : Fin 64) (q : Fin 64) :
    iblk0 V c 3 t (ix2 k q) = V c main_arg5 (ix2 k q) := by
  show V c main_arg5 (((cfg0.win 3).blk t).view.emb (ix2 k q)) = _
  refine congrArg (V c main_arg5) (funext fun a => Fin.ext ?_)
  obtain ⟨-, -, -, -, -, -, e0, e1, -⟩ := blockIndex t
  match a with
  | ⟨0, _⟩ => show win0_3.index t (0 : Fin 2) * 64 + 1 * k.val = k.val; omega
  | ⟨1, _⟩ => show win0_3.index t (1 : Fin 2) * 64 + 1 * q.val = q.val; omega

/-- The bias row is staged whole at every point. -/
theorem biasRow_apply (c : Dev nD) (t : Fin cfg0.N) (q : Fin 64) :
    iblk0 V c 4 t (ix2 (0 : Fin 1) q) = V c main_v22 (ix2 (0 : Fin 1) q) := by
  show V c main_v22 (((cfg0.win 4).blk t).view.emb (ix2 (0 : Fin 1) q)) = _
  refine congrArg (V c main_v22) (funext fun a => Fin.ext ?_)
  obtain ⟨-, -, -, -, -, -, -, -, e0, e1, -⟩ := blockIndex t
  match a with
  | ⟨0, _⟩ => show win0_4.index t (0 : Fin 2) * 1 + 1 * 0 = 0; omega
  | ⟨1, _⟩ => show win0_4.index t (1 : Fin 2) * 64 + 1 * q.val = q.val; omega

/-- Entry (p, q) of point t's output block is entry (5000·t + p, q) of the output array. -/
theorem outBlock_emb (t : Fin cfg0.N) (p : Fin 5000) (q : Fin 64) :
    ((cfg0.win 5).blk t).view.emb (ix2 p q) = ix2 (rowAt t p) q := by
  refine funext fun a => Fin.ext ?_
  obtain ⟨-, -, -, -, -, -, -, -, -, -, e0, e1, -⟩ := blockIndex t
  match a with
  | ⟨0, _⟩ => show win0_5.index t (0 : Fin 2) * 5000 + 1 * p.val = 5000 * t.val + p.val; omega
  | ⟨1, _⟩ => show win0_5.index t (1 : Fin 2) * 64 + 1 * q.val = q.val; omega

/-- WHAT POINT t WRITES BACK is block t of the layer's matrix expression of the arrays the region was entered with. -/
theorem flushed_eq (c : Dev nD) (t : Fin cfg0.N) :
    (dat0 V c).flushed 5 t = ((cfg0.win 5).blk t).view.read (Elt Ideal)
      (denseRelu (V c main_arg0) (V c main_v21) (V c main_arg4) (V c main_arg5) (V c main_v22)) := by
  show (cfg0.win 5).cut (grid0.coords t) ((dat0 V c).after 5 t) = _
  rw [after0_5]
  unfold out0_5
  rw [View.canon_unit_zero origin2]
  simp only [View.ld_unit_zero (S := S5000x64) origin2, View.ld_unit_zero (S := S64x64) origin2,
    View.ld_unit_zero (S := S1x64) origin2]
  funext j
  obtain ⟨p, q, rfl⟩ : ∃ (p : Fin 5000) (q : Fin 64), j = ix2 p q := ⟨j 0, j 1, eq_ix2 j⟩
  show k0_pay1 (iblk0 V c 0 t) (iblk0 V c 1 t) (iblk0 V c 2 t) (iblk0 V c 3 t) (iblk0 V c 4 t) (ix2 p q)
    = denseRelu (V c main_arg0) (V c main_v21) (V c main_arg4) (V c main_arg5) (V c main_v22) (((cfg0.win 5).blk t).view.emb (ix2 p q))
  rw [outBlock_emb, denseRelu_apply]
  refine (firstPayload_apply (iblk0 V c 0 t) (iblk0 V c 1 t) (iblk0 V c 2 t) (iblk0 V c 3 t) (iblk0 V c 4 t) p q).trans ?_
  simp only [nodeBlock_apply, aggBlock_apply, selfWeight_apply, neighWeight_apply, biasRow_apply]

/-- An index of the output array is in point t's block iff each coordinate is in the block's range on its axis. -/
theorem mem_outBlock (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v23).slice (win0_5.rect t)).set ↔ _
  rw [View.set_slice_whole, Rect.mem_set_unit]
  exact Iff.rfl

/-- Every row of the output array is in the block of the point numbered row / 5000. -/
theorem covered (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : grid0.N = 10 := N_0
  let t : Fin cfg0.N := ⟨(i 0).val / 5000, by show (i 0).val / 5000 < grid0.N; omega⟩
  have ht : t.val = (i 0).val / 5000 := rfl
  refine ⟨t, flush0_5 t, ?_⟩
  rw [mem_outBlock]
  obtain ⟨-, -, -, -, -, -, -, -, -, -, e0, e1, -⟩ := blockIndex t
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- THE OUTPUT ARRAY after the region is the layer's matrix expression of the arrays the region was entered with. -/
theorem array_eq (c : Dev nD) :
    (dat0 V c).arrAt 5 cfg0.N
      = denseRelu (V c main_arg0) (V c main_v21) (V c main_arg4) (V c main_arg5) (V c main_v22) :=
  (dat0 V c).arrAt_eq_of_cover 5 _ (fun t _ => flushed_eq V c t) covered

end Cert.Sage.First

end
-- ==== Proof.LayerTwoArray.lean ====
/-
  The second layer's output array after its region: (h·W + a·W') + b of the arrays the region was entered with.

  The region runs the kernel body once per block of 5000 node rows, ten blocks in all, and writes each result block
  back to rows 5000·t … 5000·t + 4999 of the output array. Point t's input blocks are those same rows of the node array
  and of the aggregated array, and the two weight matrices and the bias row whole. So what point t writes back is
  block t of ONE matrix expression of the arrays as the region finds them, (h·W + a·W') + b: at row p of the block and column q both are
      (∑_k x(5000·t + p, k)·W(k,q) + ∑_k a(5000·t + p, k)·W'(k,q)) + b(0,q).
  The ten blocks cover every row, so after the region the output array is that expression.
-/
import proofs.«162833_j73641509257822_1_alg».proof.Proof.Gen.KernelIdeal.Frame
import proofs.«162833_j73641509257822_1_alg».proof.Proof.BlockPayload
import proofs.«162833_j73641509257822_1_alg».proof.Proof.DenseLayer
import Idealize.ShloMosaic.Lib.Pipeline.Value

noncomputable section

namespace Cert.Sage.Second

open Idealize.ShloMosaic Idealize.ShloMosaic.TcCoe Idealize.ShloMosaic.ValueIdx Idealize.SL.Sem
open Cert.KernelIdeal Cert.KernelIdeal.Gen Cert.Sage
open Idealize.ShloMosaic.Pipeline (Dat)

-- the buffers' contents when the region is entered
variable (V : (c : Dev nD) → (b : Ref sig .tc) → Buf (Elt Ideal) ((c : Thread nD τ).loc b))

theorem origin2 : (![0, 0] : Fin 2 → Nat) = fun _ => 0 := funext fun a => by fin_cases a <;> rfl

/-- The block index of every window at every one of the ten points: the row blocks move with the point, the weights
    and the bias stay. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 10 :=
  (by decide +kernel : ∀ t : Fin grid1.N, _)

/-- The array row under row p of point t's block. -/
def rowAt (t : Fin cfg1.N) (p : Fin 5000) : Fin 50000 :=
  ⟨5000 * t.val + p.val, by have := (blockIndex t).2.2.2.2.2.2.2.2.2.2.2.2; have := p.isLt; omega⟩

/-- Point t's block of the node rows is rows 5000·t … of the node array. -/
theorem nodeBlock_apply (c : Dev nD) (t : Fin cfg1.N) (p : Fin 5000) (k : Fin 64) :
    iblk1 V c 0 t (ix2 p k) = V c main_v23 (ix2 (rowAt t p) k) := by
  show V c main_v23 (((cfg1.win 0).blk t).view.emb (ix2 p k)) = _
  refine congrArg (V c main_v23) (funext fun a => Fin.ext ?_)
  obtain ⟨e0, e1, -⟩ := blockIndex t
  match a with
  | ⟨0, _⟩ => show win1_0.index t (0 : Fin 2) * 5000 + 1 * p.val = 5000 * t.val + p.val; omega
  | ⟨1, _⟩ => show win1_0.index t (1 : Fin 2) * 64 + 1 * k.val = k.val; omega

/-- Point t's block of the aggregated rows is rows 5000·t … of the aggregated array. -/
theorem aggBlock_apply (c : Dev nD) (t : Fin cfg1.N) (p : Fin 5000) (k : Fin 64) :
    iblk1 V c 1 t (ix2 p k) = V c main_v36 (ix2 (rowAt t p) k) := by
  show V c main_v36 (((cfg1.win 1).blk t).view.emb (ix2 p k)) = _
  refine congrArg (V c main_v36) (funext fun a => Fin.ext ?_)
  obtain ⟨-, -, e0, e1, -⟩ := blockIndex t
  match a with
  | ⟨0, _⟩ => show win1_1.index t (0 : Fin 2) * 5000 + 1 * p.val = 5000 * t.val + p.val; omega
  | ⟨1, _⟩ => show win1_1.index t (1 : Fin 2) * 64 + 1 * k.val = k.val; omega

/-- The first weight matrix is staged whole at every point. -/
theorem selfWeight_apply (c : Dev nD) (t : Fin cfg1.N) (k : Fin 64) (q : Fin 32) :
    iblk1 V c 2 t (ix2 k q) = V c main_arg7 (ix2 k q) := by
  show V c main_arg7 (((cfg1.win 2).blk t).view.emb (ix2 k q)) = _
  refine congrArg (V c main_arg7) (funext fun a => Fin.ext ?_)
  obtain ⟨-, -, -, -, e0, e1, -⟩ := blockIndex t
  match a with
  | ⟨0, _⟩ => show win1_2.index t (0 : Fin 2) * 64 + 1 * k.val = k.val; omega
  | ⟨1, _⟩ => show win1_2.index t (1 : Fin 2) * 32 + 1 * q.val = q.val; omega

/-- The second weight matrix is staged whole at every point. -/
theorem neighWeight_apply (c : Dev nD) (t : Fin cfg1.N) (k : Fin 64) (q : Fin 32) :
    iblk1 V c 3 t (ix2 k q) = V c main_arg8 (ix2 k q) := by
  show V c main_arg8 (((cfg1.win 3).blk t).view.emb (ix2 k q)) = _
  refine congrArg (V c main_arg8) (funext fun a => Fin.ext ?_)
  obtain ⟨-, -, -, -, -, -, e0, e1, -⟩ := blockIndex t
  match a with
  | ⟨0, _⟩ => show win1_3.index t (0 : Fin 2) * 64 + 1 * k.val = k.val; omega
  | ⟨1, _⟩ => show win1_3.index t (1 : Fin 2) * 32 + 1 * q.val = q.val; omega

/-- The bias row is staged whole at every point. -/
theorem biasRow_apply (c : Dev nD) (t : Fin cfg1.N) (q : Fin 32) :
    iblk1 V c 4 t (ix2 (0 : Fin 1) q) = V c main_v37 (ix2 (0 : Fin 1) q) := by
  show V c main_v37 (((cfg1.win 4).blk t).view.emb (ix2 (0 : Fin 1) q)) = _
  refine congrArg (V c main_v37) (funext fun a => Fin.ext ?_)
  obtain ⟨-, -, -, -, -, -, -, -, e0, e1, -⟩ := blockIndex t
  match a with
  | ⟨0, _⟩ => show win1_4.index t (0 : Fin 2) * 1 + 1 * 0 = 0; omega
  | ⟨1, _⟩ => show win1_4.index t (1 : Fin 2) * 32 + 1 * q.val = q.val; omega

/-- Entry (p, q) of point t's output block is entry (5000·t + p, q) of the output array. -/
theorem outBlock_emb (t : Fin cfg1.N) (p : Fin 5000) (q : Fin 32) :
    ((cfg1.win 5).blk t).view.emb (ix2 p q) = ix2 (rowAt t p) q := by
  refine funext fun a => Fin.ext ?_
  obtain ⟨-, -, -, -, -, -, -, -, -, -, e0, e1, -⟩ := blockIndex t
  match a with
  | ⟨0, _⟩ => show win1_5.index t (0 : Fin 2) * 5000 + 1 * p.val = 5000 * t.val + p.val; omega
  | ⟨1, _⟩ => show win1_5.index t (1 : Fin 2) * 32 + 1 * q.val = q.val; omega

/-- WHAT POINT t WRITES BACK is block t of the layer's matrix expression of the arrays the region was entered with. -/
theorem flushed_eq (c : Dev nD) (t : Fin cfg1.N) :
    (dat1 V c).flushed 5 t = ((cfg1.win 5).blk t).view.read (Elt Ideal)
      (denseLin (V c main_v23) (V c main_v36) (V c main_arg7) (V c main_arg8) (V c main_v37)) := by
  show (cfg1.win 5).cut (grid1.coords t) ((dat1 V c).after 5 t) = _
  rw [after1_5]
  unfold out1_5
  rw [View.canon_unit_zero origin2]
  simp only [View.ld_unit_zero (S := S5000x64) origin2, View.ld_unit_zero (S := S64x32) origin2,
    View.ld_unit_zero (S := S1x32) origin2]
  funext j
  obtain ⟨p, q, rfl⟩ : ∃ (p : Fin 5000) (q : Fin 32), j = ix2 p q := ⟨j 0, j 1, eq_ix2 j⟩
  show k1_pay1 (iblk1 V c 0 t) (iblk1 V c 1 t) (iblk1 V c 2 t) (iblk1 V c 3 t) (iblk1 V c 4 t) (ix2 p q)
    = denseLin (V c main_v23) (V c main_v36) (V c main_arg7) (V c main_arg8) (V c main_v37) (((cfg1.win 5).blk t).view.emb (ix2 p q))
  rw [outBlock_emb, denseLin_apply]
  refine (secondPayload_apply (iblk1 V c 0 t) (iblk1 V c 1 t) (iblk1 V c 2 t) (iblk1 V c 3 t) (iblk1 V c 4 t) p q).trans ?_
  simp only [nodeBlock_apply, aggBlock_apply, selfWeight_apply, neighWeight_apply, biasRow_apply]

/-- An index of the output array is in point t's block iff each coordinate is in the block's range on its axis. -/
theorem mem_outBlock (t : Fin cfg1.N) (i : S50000x32.Idx) :
    i ∈ ((cfg1.win 5).blk t).view.set ↔ ∀ a : Fin 2, win1_5.index t a * S5000x32.size a ≤ (i a).val
      ∧ (i a).val < win1_5.index t a * S5000x32.size a + S5000x32.size a := by
  show i ∈ ((View.whole main_v38).slice (win1_5.rect t)).set ↔ _
  rw [View.set_slice_whole, Rect.mem_set_unit]
  exact Iff.rfl

/-- Every row of the output array is in the block of the point numbered row / 5000. -/
theorem covered (i : S50000x32.Idx) :
    ∃ t : Fin cfg1.N, (cfg1.win 5).flush t = true ∧ i ∈ ((cfg1.win 5).blk t).view.set := by
  have hi0 : (i 0).val < 50000 := (i 0).isLt
  have hi1 : (i 1).val < 32 := (i 1).isLt
  have hN : grid1.N = 10 := N_1
  let t : Fin cfg1.N := ⟨(i 0).val / 5000, by show (i 0).val / 5000 < grid1.N; omega⟩
  have ht : t.val = (i 0).val / 5000 := rfl
  refine ⟨t, flush1_5 t, ?_⟩
  rw [mem_outBlock]
  obtain ⟨-, -, -, -, -, -, -, -, -, -, e0, e1, -⟩ := blockIndex t
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 32 ≤ (i 1).val ∧ (i 1).val < win1_5.index t (1 : Fin 2) * 32 + 32
    omega

/-- THE OUTPUT ARRAY after the region is the layer's matrix expression of the arrays the region was entered with. -/
theorem array_eq (c : Dev nD) :
    (dat1 V c).arrAt 5 cfg1.N
      = denseLin (V c main_v23) (V c main_v36) (V c main_arg7) (V c main_arg8) (V c main_v37) :=
  (dat1 V c).arrAt_eq_of_cover 5 _ (fun t _ => flushed_eq V c t) covered

end Cert.Sage.Second

end
-- ==== Proof.MeanAggregate.lean ====
/-
  The graph part of the two-layer network, shared word for word by both programs and therefore carried as named
  functions that no proof opens.

  For 800000 edges (source s_e, destination d_e) over 50000 nodes:
    degree d        : node n ↦ max(#{e | d_e = n}, 1), the count taken as a scatter-add of ones into zeros;
    wrapped s       : the source indices with a negative one moved up by 50000 (the usual reading of x[s]);
    meanOver msg d  : node n ↦ (∑_{e : d_e = n} msg_e) / degree n, one row of 64 features per node;
    aggWeighted     : meanOver of the gathered source rows, each scaled by its edge weight;
    aggPlain        : meanOver of the gathered source rows.
-/
import proofs.«162833_j73641509257822_1_alg».proof.Proof.Gen.KernelIdeal
import Idealize.ShloMosaic.PureOps.Ideal

noncomputable section

namespace Cert.Sage

open Idealize.ShloMosaic Cert.KernelIdeal Cert.KernelIdeal.Gen

/-- The in-degree of every node, never below one. -/
def degree (dst : IVec S800000 32) : FVec Ideal S50000 .f32 :=
  maximumf
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 dst)
      (broadcastInDim S800000 ![] bcast_S_S800000 (constant (F := Ideal) S_ .f32 0x3F800000#32)))
    (broadcastInDim S50000 ![] bcast_S_S50000 (constant (F := Ideal) S_ .f32 0x3F800000#32))

/-- The source indices as a column, a negative index read from the end of the node axis. -/
def wrapped (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The per-edge rows summed into their destination nodes and divided by the in-degree. -/
def meanOver (msg : FVec Ideal S800000x64 .f32) (dst : IVec S800000 32) : FVec Ideal S50000x64 .f32 :=
  Host.divf (F := Ideal)
    (Host.scatterAdd (F := Ideal) scatter_S50000x64_S800000x1_S800000x64_1_0_0_1
      (broadcastInDim S50000x64 ![] bcast_S_S50000x64 (constant (F := Ideal) S_ .f32 0x00000000#32))
      (broadcastInDim S800000x1 ![0] bcast_S800000_S800000x1_0 dst) msg)
    (broadcastInDim S50000x64 ![0, 1] bcast_S50000x1_S50000x64_0_1
      (broadcastInDim S50000x1 ![0] bcast_S50000_S50000x1_0 (degree dst)))

/-- The mean over incoming edges of the source node's row times the edge's weight. -/
def aggWeighted (x : FVec Ideal S50000x64 .f32) (src dst : IVec S800000 32) (w : FVec Ideal S800000 .f32) :
    FVec Ideal S50000x64 .f32 :=
  meanOver
    (mulf (Host.gather gather_S50000x64_S800000x1_S800000x64_1_0_n_n_0_1_164 x (wrapped src))
      (broadcastInDim S800000x64 ![0, 1] bcast_S800000x1_S800000x64_0_1
        (broadcastInDim S800000x1 ![0] bcast_S800000_S800000x1_0 w))) dst

/-- The mean over incoming edges of the source node's row. -/
def aggPlain (h : FVec Ideal S50000x64 .f32) (src dst : IVec S800000 32) : FVec Ideal S50000x64 .f32 :=
  meanOver (Host.gather gather_S50000x64_S800000x1_S800000x64_1_0_n_n_0_1_164 h (wrapped src)) dst

end Cert.Sage

end
-- ==== Proof.Network.lean ====
/-
  The whole two-layer network as one function of its ten inputs.

      hidden  = max( (x·W₁ + aggWeighted(x)·W₁') + b₁ , 0 )            50000 × 64
      network = (hidden·W₂ + aggPlain(hidden)·W₂') + b₂                 50000 × 32
  with aggWeighted and aggPlain the mean aggregations over incoming edges (the first with edge weights), each bias
  vector laid as a row. Both programs are shown to end with their result array at `network` of their arguments.
-/
import proofs.«162833_j73641509257822_1_alg».proof.Proof.MeanAggregate
import proofs.«162833_j73641509257822_1_alg».proof.Proof.DenseLayer

noncomputable section

namespace Cert.Sage

open Idealize.ShloMosaic Cert.KernelIdeal Cert.KernelIdeal.Gen

/-- The first layer's activations. -/
def hidden (x : FVec Ideal S50000x64 .f32) (src dst : IVec S800000 32) (w : FVec Ideal S800000 .f32)
    (W₁ W₁' : FVec Ideal S64x64 .f32) (b₁ : FVec Ideal S64 .f32) : FVec Ideal S50000x64 .f32 :=
  denseRelu x (aggWeighted x src dst w) W₁ W₁' (rowOf64 b₁)

/-- The network's output. -/
def network (x : FVec Ideal S50000x64 .f32) (src dst : IVec S800000 32) (w : FVec Ideal S800000 .f32)
    (W₁ W₁' : FVec Ideal S64x64 .f32) (b₁ : FVec Ideal S64 .f32) (W₂ W₂' : FVec Ideal S64x32 .f32) (b₂ : FVec Ideal S32 .f32) :
    FVec Ideal S50000x32 .f32 :=
  denseLin (hidden x src dst w W₁ W₁' b₁) (aggPlain (hidden x src dst w W₁ W₁' b₁) src dst) W₂ W₂' (rowOf32 b₂)

end Cert.Sage

end
-- ==== Proof.KernelResult.lean ====
/-
  The kernel program's result array, read through its run.

  The run is a fold through four stretches: host operations (the in-degree, the first weighted mean aggregation, the
  first bias as a row), the first dense region, host operations again (the second mean aggregation over the first
  region's output, the second bias as a row), the second dense region. At each boundary a buffer holds either what the
  stretch before wrote into it or what it held one boundary earlier. Reading the result buffer back through the fold:
  the second region leaves `denseLin` of its entry arrays; of those, the node rows are the first region's output, which
  is `denseRelu` of that region's entry arrays, and the aggregated rows are the host's mean aggregation of that same
  output; the arguments are as launched throughout. Together: the result is `network` of the arguments.
-/
import proofs.«162833_j73641509257822_1_alg».proof.Proof.Gen.KernelIdeal.Frame
import proofs.«162833_j73641509257822_1_alg».proof.Proof.LayerOneArray
import proofs.«162833_j73641509257822_1_alg».proof.Proof.LayerTwoArray
import proofs.«162833_j73641509257822_1_alg».proof.Proof.Network
import Idealize.ShloMosaic.Lib.StableHlo.Run

noncomputable section

namespace Cert.Sage.KernelSide

open Idealize.ShloMosaic Idealize.ShloMosaic.TcCoe Idealize.ShloMosaic.StableHlo Idealize.SL.Sem
open Cert.KernelIdeal Cert.KernelIdeal.Gen Cert.Sage

variable (m : (ℓ : Loc nD τ sig) → Buf (Elt Ideal) ℓ) (ρ : Dev nD → PrngReg) (c : Dev nD)

/-! ## The first region's entry: after the first host stretch -/

theorem entry1_nodes : V1 m ρ c main_arg0 = m ((c : Thread nD τ).loc main_arg0) := by
  show StableHlo.after hostOps0 (W0 m ρ c) (Proc.devRef .tc main_arg0) = _
  dsimp only [hostOps0]; after_results_simp

theorem entry1_selfWeight : V1 m ρ c main_arg4 = m ((c : Thread nD τ).loc main_arg4) := by
  show StableHlo.after hostOps0 (W0 m ρ c) (Proc.devRef .tc main_arg4) = _
  dsimp only [hostOps0]; after_results_simp

theorem entry1_neighWeight : V1 m ρ c main_arg5 = m ((c : Thread nD τ).loc main_arg5) := by
  show StableHlo.after hostOps0 (W0 m ρ c) (Proc.devRef .tc main_arg5) = _
  dsimp only [hostOps0]; after_results_simp

/-- The aggregated rows the first region reads are the weighted mean aggregation of the node rows. -/
theorem entry1_agg : V1 m ρ c main_v21
    = aggWeighted (m ((c : Thread nD τ).loc main_arg0)) (m ((c : Thread nD τ).loc main_arg1))
        (m ((c : Thread nD τ).loc main_arg2)) (m ((c : Thread nD τ).loc main_arg3)) := by
  show StableHlo.after hostOps0 (W0 m ρ c) (Proc.devRef .tc main_v21) = _
  dsimp only [hostOps0]; after_results_simp; rfl

/-- The bias row the first region reads is the first bias vector as a row. -/
theorem entry1_bias : V1 m ρ c main_v22 = rowOf64 (m ((c : Thread nD τ).loc main_arg6)) := by
  show StableHlo.after hostOps0 (W0 m ρ c) (Proc.devRef .tc main_v22) = _
  dsimp only [hostOps0]; after_results_simp
  exact reshape_row64 _ _

/-- The in-degree the first host stretch leaves. -/
theorem entry1_degree : W1 m ρ c (Proc.devRef .tc main_v5) = degree (m ((c : Thread nD τ).loc main_arg2)) := by
  show StableHlo.after hostOps0 (W0 m ρ c) (Proc.devRef .tc main_v5) = _
  dsimp only [hostOps0]; after_results_simp; rfl

/-! ## The first region's exit -/

/-- The first region leaves the hidden activations in its output array. -/
theorem exit1_hidden : W2 m ρ c (Proc.devRef .tc main_v23) = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W2_arr m ρ c 5).trans ((First.array_eq (V1 m ρ) c).trans ?_)
  rw [entry1_nodes, entry1_agg, entry1_selfWeight, entry1_neighWeight, entry1_bias]
  rfl

/-- The first region touches no argument: the source indices are as launched. -/
theorem exit1_src : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  dsimp only [hostOps0]; after_results_simp

/-- The destination indices are as launched. -/
theorem exit1_dst : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  dsimp only [hostOps0]; after_results_simp

/-- The second layer's first weight matrix is as launched. -/
theorem exit1_selfWeight2 : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  dsimp only [hostOps0]; after_results_simp

/-- The second layer's second weight matrix is as launched. -/
theorem exit1_neighWeight2 : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  dsimp only [hostOps0]; after_results_simp

/-- The second bias vector is as launched. -/
theorem exit1_bias2 : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  dsimp only [hostOps0]; after_results_simp

/-- The in-degree is what the first host stretch left. -/
theorem exit1_degree : W2 m ρ c (Proc.devRef .tc main_v5) = degree (m ((c : Thread nD τ).loc main_arg2)) := by
  rw [W2_of_ne m ρ c main_v5 (by decide)]
  exact entry1_degree m ρ c

/-! ## The second region's entry: after the second host stretch -/

/-- The node rows the second region reads are the hidden activations. -/
theorem entry2_nodes : V3 m ρ c main_v23 = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v23) = _
  dsimp only [hostOps1]; after_results_simp
  exact exit1_hidden m ρ c

/-- The aggregated rows the second region reads are the mean aggregation of the hidden activations. -/
theorem entry2_agg : V3 m ρ c main_v36
    = aggPlain (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) := by
  show StableHlo.after hostOps1 (W2 m ρ c) (Proc.devRef .tc main_v36) = _
  dsimp only [hostOps1]; after_results_simp
  rw [exit1_hidden, exit1_src, exit1_dst, exit1_degree]
  rfl

theorem entry2_selfWeight : V3 m ρ c main_arg7 = m ((c : Thread nD τ).loc main_arg7) := by
  show StableHlo.after hostOps1 (W2 m ρ c) (Proc.devRef .tc main_arg7) = _
  dsimp only [hostOps1]; after_results_simp
  exact exit1_selfWeight2 m ρ c

theorem entry2_neighWeight : V3 m ρ c main_arg8 = m ((c : Thread nD τ).loc main_arg8) := by
  show StableHlo.after hostOps1 (W2 m ρ c) (Proc.devRef .tc main_arg8) = _
  dsimp only [hostOps1]; after_results_simp
  exact exit1_neighWeight2 m ρ c

/-- The bias row the second region reads is the second bias vector as a row. -/
theorem entry2_bias : V3 m ρ c main_v37 = rowOf32 (m ((c : Thread nD τ).loc main_arg9)) := by
  show StableHlo.after hostOps1 (W2 m ρ c) (Proc.devRef .tc main_v37) = _
  dsimp only [hostOps1]; after_results_simp
  rw [exit1_bias2]
  exact reshape_row32 _ _

/-! ## The result -/

/-- THE RESULT ARRAY at the end of the run is the network of the arguments. -/
theorem result_eq : W4 m ρ c (Proc.devRef .tc main_v38) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 5).trans ((Second.array_eq (V3 m ρ) c).trans ?_)
  rw [entry2_nodes, entry2_agg, entry2_selfWeight, entry2_neighWeight, entry2_bias]
  rfl

end Cert.Sage.KernelSide

end
-- ==== Proof.ReferenceResult.lean ====
/-
  The reference program's result, read as the same function.

  The reference is host operations only, and its run ends with the result buffer at the operations' composed term of the
  arguments. That term is, operation for operation, `network` of the arguments: the in-degree, the wrapped source
  indices and the two mean aggregations are the named graph functions; each dense layer is the plain matrix
  expression (its two products, the sum, the bias row repeated down the rows, and for the first layer the maximum with
  zero); the records that name the products' axes and the scatter's and gather's axes carry the same axis lists in
  both programs.
-/
import proofs.«162833_j73641509257822_1_alg».proof.Proof.Gen.ReferenceIdeal.Run
import proofs.«162833_j73641509257822_1_alg».proof.Proof.Network

noncomputable section

namespace Cert.Sage.ReferenceSide

open Idealize.ShloMosaic Idealize.ShloMosaic.TcCoe Idealize.SL.Sem Cert.Sage

/-- The reference's result term is the network of its arguments. -/
theorem result_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v47 m c
      = network (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5))
        (m ((c.tc : Thread Cert.ReferenceIdeal.nD Cert.ReferenceIdeal.τ).loc Cert.ReferenceIdeal.main_arg6))
        (m ((c.tc : Thread Cert.ReferenceIdeal.nD Cert.ReferenceIdeal.τ).loc Cert.ReferenceIdeal.main_arg7))
        (m ((c.tc : Thread Cert.ReferenceIdeal.nD Cert.ReferenceIdeal.τ).loc Cert.ReferenceIdeal.main_arg8))
        (m ((c.tc : Thread Cert.ReferenceIdeal.nD Cert.ReferenceIdeal.τ).loc Cert.ReferenceIdeal.main_arg9)) := by
  unfold Cert.ReferenceIdeal.Value.res_main_v47
  rfl

end Cert.Sage.ReferenceSide

end
-- ==== Proof.lean ====
/-
  A two-layer graph network with mean aggregation over 50000 nodes and 800000 edges:
      hidden = max( (x·W₁ + agg_w(x)·W₁') + b₁ , 0 ),      out = (hidden·W₂ + agg(hidden)·W₂') + b₂,
  where agg takes, for every node, the mean over its incoming edges of the source node's row (the first time each row
  scaled by its edge's weight), the in-degree never taken below one.

  The kernel program does the aggregations on the host and each dense layer in a region of ten blocks of 5000 node
  rows; the reference does everything on the host. On exact numbers the two agree with no law beyond tiling: a block
  of rows of a matrix product is the product of that block of rows, the bias row is the same row whether it is made by
  a reshape or by a broadcast, narrowing a float format is the identity, and a product accumulated into zero is the
  plain contraction. The aggregations are the same operations on both sides and are carried unopened. No input needs to
  be finite for this, so the precondition is never used.

  `Cert.Sage.network` is the common value: the kernel's result array is read to it through the run's boundaries
  (KernelResult.lean, over the two regions' output arrays, LayerOneArray.lean and LayerTwoArray.lean) and the
  reference's composed term is it as written (ReferenceResult.lean).
-/
import proofs.«162833_j73641509257822_1_alg».proof.Defs
import proofs.«162833_j73641509257822_1_alg».proof.Proof.Gen.Kernel
import proofs.«162833_j73641509257822_1_alg».proof.Proof.Gen.Kernel.Skeleton
import proofs.«162833_j73641509257822_1_alg».proof.Proof.Gen.Kernel.Launch
import proofs.«162833_j73641509257822_1_alg».proof.Proof.Gen.Kernel.Points
import proofs.«162833_j73641509257822_1_alg».proof.Proof.Gen.Kernel.Frame
import proofs.«162833_j73641509257822_1_alg».proof.Proof.Gen.KernelIdeal
import proofs.«162833_j73641509257822_1_alg».proof.Proof.Gen.KernelIdeal.Skeleton
import proofs.«162833_j73641509257822_1_alg».proof.Proof.Gen.KernelIdeal.Launch
import proofs.«162833_j73641509257822_1_alg».proof.Proof.Gen.KernelIdeal.Points
import proofs.«162833_j73641509257822_1_alg».proof.Proof.Gen.KernelIdeal.Frame
import proofs.«162833_j73641509257822_1_alg».proof.Proof.Gen.ReferenceIdeal
import proofs.«162833_j73641509257822_1_alg».proof.Proof.Gen.Pre_finite_inputs
import proofs.«162833_j73641509257822_1_alg».proof.Proof.Gen.ReferenceIdeal.Run
import proofs.«162833_j73641509257822_1_alg».proof.Proof.Gen.ReferenceIdeal.Read
import proofs.«162833_j73641509257822_1_alg».proof.Proof.NamedRun
import proofs.«162833_j73641509257822_1_alg».proof.Proof.KernelResult
import proofs.«162833_j73641509257822_1_alg».proof.Proof.ReferenceResult
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read on exact numbers. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On exact numbers both programs end with the result array at the network of the arguments. -/
theorem algebraic : Cert.algebraic_KernelIdeal_ReferenceIdeal := by
  intro m ρ m' ρ' _ hagree
  refine ⟨fun c => Cert.Sage.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Sage.KernelSide.result_eq m ρ c), (h c).2⟩)
      (Cert.KernelIdeal.NamedRun.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.Sage.ReferenceSide.result_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
